-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S27x64x64 : Shape := ⟨3, ![27, 64, 64]⟩
abbrev S27x50000 : Shape := ⟨2, ![27, 50000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S27x64x64 : S_.BroadcastsInDim S27x64x64 (![] : Fin 0 → Fin S27x64x64.rank)
  reducesTo_S27x64x64_S_d0_1_2 : S27x64x64.ReducesTo [0, 1, 2] S_

variable [Facts]

def fn {F : FTy → Type} [FloatOps F] (main_arg0 : FVec F S100000x64 .f32) (main_arg1 : FVec F S27x64x64 .f32) (main_arg2 : IVec S27x50000 32) (main_arg3 : IVec S27x50000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S27x64x64 .f32 := Host.absf main_arg1
  let main_cst_0 : FVec F S_ .f32 := constant S_ .f32 0x7F800000#32
  let main_v5 : FVec F S27x64x64 .f32 := broadcastInDim S27x64x64 ![] bcast_S_S27x64x64 main_cst_0
  let main_v6 : IVec S27x64x64 1 := cmpf .olt main_v4 main_v5
  let main_c_1 : IVec S_ 1 := constantI S_ 1 1#1
  let main_v7 : IVec S_ 1 := (fun x v => Host.reduce IntOp.andi x v reducesTo_S27x64x64_S_d0_1_2 h_S_) main_v6 main_c_1
  let main_v8 : IVec S_ 1 := andi main_v3 main_v7
  main_v8
-- ==== Kernel.lean ====
abbrev S100000x64 : Shape := ⟨2, ![100000, 64]⟩
abbrev S27x64x64 : Shape := ⟨3, ![27, 64, 64]⟩
abbrev S27x50000 : Shape := ⟨2, ![27, 50000]⟩
abbrev S_ : Shape := ⟨0, ![]⟩
abbrev S27x50000x1 : Shape := ⟨3, ![27, 50000, 1]⟩
abbrev S27x50000x64 : Shape := ⟨3, ![27, 50000, 64]⟩
abbrev S1x25000x64 : Shape := ⟨3, ![1, 25000, 64]⟩
abbrev S1x64x64 : Shape := ⟨3, ![1, 64, 64]⟩
abbrev S25000x64 : Shape := ⟨2, ![25000, 64]⟩
abbrev S64x64 : Shape := ⟨2, ![64, 64]⟩
abbrev S1350000 : Shape := ⟨1, ![1350000]⟩
abbrev S1350000x64 : Shape := ⟨2, ![1350000, 64]⟩
abbrev S1350000x1 : Shape := ⟨2, ![1350000, 1]⟩

abbrev nBuf : Space → Nat
  | .hbm => 29
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S27x64x64, .f32⟩
  | .hbm, ⟨2, _⟩ => ⟨S27x50000, .i32⟩
  | .hbm, ⟨3, _⟩ => ⟨S27x50000, .i32⟩
  | .hbm, ⟨4, _⟩ => ⟨S_, .i32⟩
  | .hbm, ⟨5, _⟩ => ⟨S27x50000, .i32⟩
  | .hbm, ⟨6, _⟩ => ⟨S27x50000, .i1⟩
  | .hbm, ⟨7, _⟩ => ⟨S_, .i32⟩
  | .hbm, ⟨8, _⟩ => ⟨S27x50000, .i32⟩
  | .hbm, ⟨9, _⟩ => ⟨S27x50000, .i32⟩
  | .hbm, ⟨10, _⟩ => ⟨S27x50000, .i32⟩
  | .hbm, ⟨11, _⟩ => ⟨S27x50000x1, .i32⟩
  | .hbm, ⟨12, _⟩ => ⟨S27x50000x64, .f32⟩
  | .hbm, ⟨13, _⟩ => ⟨S27x50000x64, .bf16⟩
  | .hbm, ⟨14, _⟩ => ⟨S27x64x64, .bf16⟩
  | .hbm, ⟨15, _⟩ => ⟨S27x50000x64, .f32⟩
  | .hbm, ⟨16, _⟩ => ⟨S_, .f32⟩
  | .hbm, ⟨17, _⟩ => ⟨S100000x64, .f32⟩
  | .hbm, ⟨18, _⟩ => ⟨S1350000, .i32⟩
  | .hbm, ⟨19, _⟩ => ⟨S1350000x64, .f32⟩
  | .hbm, ⟨20, _⟩ => ⟨S_, .i32⟩
  | .hbm, ⟨21, _⟩ => ⟨S1350000, .i32⟩
  | .hbm, ⟨22, _⟩ => ⟨S1350000, .i1⟩
  | .hbm, ⟨23, _⟩ => ⟨S_, .i32⟩
  | .hbm, ⟨24, _⟩ => ⟨S1350000, .i32⟩
  | .hbm, ⟨25, _⟩ => ⟨S1350000, .i32⟩
  | .hbm, ⟨26, _⟩ => ⟨S1350000, .i32⟩
  | .hbm, ⟨27, _⟩ => ⟨S1350000x1, .i32⟩
  | .hbm, ⟨28, _⟩ => ⟨S100000x64, .f32⟩
  | .local _ .vmem, ⟨0, _⟩ => ⟨S1x25000x64, .bf16⟩
  | .local _ .vmem, ⟨1, _⟩ => ⟨S1x25000x64, .bf16⟩
  | .local _ .vmem, ⟨2, _⟩ => ⟨S1x64x64, .bf16⟩
  | .local _ .vmem, ⟨3, _⟩ => ⟨S1x64x64, .bf16⟩
  | .local _ .vmem, ⟨4, _⟩ => ⟨S1x25000x64, .f32⟩
  | .local _ .vmem, ⟨5, _⟩ => ⟨S1x25000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_c_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x25000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x25000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  bitsLt_bf16_f32 : FTy.bits .bf16 < FTy.bits .f32
  inb_S1x25000x64_S1x25000x64_0_0_0 : ∀ a, (![0, 0, 0] : Fin 3 → Nat) a + S1x25000x64.size a ≤ S1x25000x64.size a
  h_S1x25000x64 : 0 < S1x25000x64.numel
  shapeCasts_S1x25000x64_S25000x64 : S1x25000x64.ShapeCasts S25000x64
  inb_S1x64x64_S1x64x64_0_0_0 : ∀ a, (![0, 0, 0] : Fin 3 → Nat) a + S1x64x64.size a ≤ S1x64x64.size a
  h_S1x64x64 : 0 < S1x64x64.numel
  shapeCasts_S1x64x64_S64x64 : S1x64x64.ShapeCasts S64x64
  shapeCasts_S25000x64_S1x25000x64 : S25000x64.ShapeCasts S1x25000x64
  bcast_S_S100000x64 : S_.BroadcastsInDim S100000x64 (![] : Fin 0 → Fin S100000x64.rank)
  shapeCasts_S27x50000_S1350000 : S27x50000.ShapeCasts S1350000
  shapeCasts_S27x50000x64_S1350000x64 : S27x50000x64.ShapeCasts S1350000x64
  bcast_S_S1350000 : S_.BroadcastsInDim S1350000 (![] : Fin 0 → Fin S1350000.rank)
  bcast_S1350000_S1350000x1_0 : S1350000.BroadcastsInDim S1350000x1 (![0] : Fin 1 → Fin S1350000x1.rank)
  gather_S100000x64_S27x50000x1_S27x50000x64_2_0_n_n_0_2_164_wf : GatherDims.WF S100000x64 S27x50000x1 S27x50000x64 [2] [0] [] [0] [] 2 ![1, 64]
  dot_S25000x64_S64x64_S25000x64_1_0_0_1_n_n_wf : DotDims.WF S25000x64 S64x64 S25000x64 [1] [0] [0] [1] [] []
  scatter_S100000x64_S1350000x1_S1350000x64_1_0_0_1_wf : ScatterDims.WF S100000x64 S1350000x1 S1350000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x25000x64.size a ≤ S27x50000x64.size a
  hwx0_0 : ∀ i : grid0.Coords, EltTy.bits .bf16 = 32 ∨ (Rect.block (s := S27x50000x64) S1x25000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64.size a ≤ S27x64x64.size a
  hwx0_1 : ∀ i : grid0.Coords, EltTy.bits .bf16 = 32 ∨ (Rect.block (s := S27x64x64) S1x64x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x25000x64.size a ≤ S27x50000x64.size a
  hwx0_2 : ∀ i : grid0.Coords, EltTy.bits .f32 = 32 ∨ (Rect.block (s := S27x50000x64) S1x25000x64.size (cc0_transform_2 i) (hinb0_2 i)).WholeWords (EltTy.packing .f32)

variable [Facts₀]

def gather_S100000x64_S27x50000x1_S27x50000x64_2_0_n_n_0_2_164 : GatherDims S100000x64 S27x50000x1 S27x50000x64 where
  offsetDims := [2]
  collapsedSliceDims := [0]
  operandBatchingDims := []
  startIndicesBatchingDims := []
  startIndexMap := [0]
  indexVectorDim := 2
  sliceSizes := ![1, 64]
  wf := gather_S100000x64_S27x50000x1_S27x50000x64_2_0_n_n_0_2_164_wf
def dot_S25000x64_S64x64_S25000x64_1_0_0_1_n_n : DotDims S25000x64 S64x64 S25000x64 where
  lhsContracting := [1]
  rhsContracting := [0]
  lhsNonContracting := [0]
  rhsNonContracting := [1]
  lhsBatch := []
  rhsBatch := []
  wf := dot_S25000x64_S64x64_S25000x64_1_0_0_1_n_n_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

abbrev win0_0 : Pipeline.Window sig grid0 :=
  Pipeline.Window.ofSpec (Memref.whole main_v7) S1x25000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x25000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S27x64x64 : Shape := ⟨3, ![27, 64, 64]⟩
abbrev S27x50000 : Shape := ⟨2, ![27, 50000]⟩
abbrev S_ : Shape := ⟨0, ![]⟩
abbrev S27x50000x1 : Shape := ⟨3, ![27, 50000, 1]⟩
abbrev S27x50000x64 : Shape := ⟨3, ![27, 50000, 64]⟩
abbrev S1350000 : Shape := ⟨1, ![1350000]⟩
abbrev S1350000x64 : Shape := ⟨2, ![1350000, 64]⟩
abbrev S1350000x1 : Shape := ⟨2, ![1350000, 1]⟩

abbrev nBuf : Space → Nat
  | .hbm => 27
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S27x64x64, .f32⟩
  | .hbm, ⟨2, _⟩ => ⟨S27x50000, .i32⟩
  | .hbm, ⟨3, _⟩ => ⟨S27x50000, .i32⟩
  | .hbm, ⟨4, _⟩ => ⟨S_, .i32⟩
  | .hbm, ⟨5, _⟩ => ⟨S27x50000, .i32⟩
  | .hbm, ⟨6, _⟩ => ⟨S27x50000, .i1⟩
  | .hbm, ⟨7, _⟩ => ⟨S_, .i32⟩
  | .hbm, ⟨8, _⟩ => ⟨S27x50000, .i32⟩
  | .hbm, ⟨9, _⟩ => ⟨S27x50000, .i32⟩
  | .hbm, ⟨10, _⟩ => ⟨S27x50000, .i32⟩
  | .hbm, ⟨11, _⟩ => ⟨S27x50000x1, .i32⟩
  | .hbm, ⟨12, _⟩ => ⟨S27x50000x64, .f32⟩
  | .hbm, ⟨13, _⟩ => ⟨S27x50000x64, .f32⟩
  | .hbm, ⟨14, _⟩ => ⟨S_, .f32⟩
  | .hbm, ⟨15, _⟩ => ⟨S100000x64, .f32⟩
  | .hbm, ⟨16, _⟩ => ⟨S1350000, .i32⟩
  | .hbm, ⟨17, _⟩ => ⟨S1350000x64, .f32⟩
  | .hbm, ⟨18, _⟩ => ⟨S_, .i32⟩
  | .hbm, ⟨19, _⟩ => ⟨S1350000, .i32⟩
  | .hbm, ⟨20, _⟩ => ⟨S1350000, .i1⟩
  | .hbm, ⟨21, _⟩ => ⟨S_, .i32⟩
  | .hbm, ⟨22, _⟩ => ⟨S1350000, .i32⟩
  | .hbm, ⟨23, _⟩ => ⟨S1350000, .i32⟩
  | .hbm, ⟨24, _⟩ => ⟨S1350000, .i32⟩
  | .hbm, ⟨25, _⟩ => ⟨S1350000x1, .i32⟩
  | .hbm, ⟨26, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S27x50000 : S_.BroadcastsInDim S27x50000 (![] : Fin 0 → Fin S27x50000.rank)
  bcast_S27x50000_S27x50000x1_0_1 : S27x50000.BroadcastsInDim S27x50000x1 (![0, 1] : Fin 2 → Fin S27x50000x1.rank)
  bcast_S_S100000x64 : S_.BroadcastsInDim S100000x64 (![] : Fin 0 → Fin S100000x64.rank)
  shapeCasts_S27x50000_S1350000 : S27x50000.ShapeCasts S1350000
  shapeCasts_S27x50000x64_S1350000x64 : S27x50000x64.ShapeCasts S1350000x64
  bcast_S_S1350000 : S_.BroadcastsInDim S1350000 (![] : Fin 0 → Fin S1350000.rank)
  bcast_S1350000_S1350000x1_0 : S1350000.BroadcastsInDim S1350000x1 (![0] : Fin 1 → Fin S1350000x1.rank)
  gather_S100000x64_S27x50000x1_S27x50000x64_2_0_n_n_0_2_164_wf : GatherDims.WF S100000x64 S27x50000x1 S27x50000x64 [2] [0] [] [0] [] 2 ![1, 64]
  dot_S27x50000x64_S27x64x64_S27x50000x64_2_1_1_2_0_0_wf : DotDims.WF S27x50000x64 S27x64x64 S27x50000x64 [2] [1] [1] [2] [0] [0]
  scatter_S100000x64_S1350000x1_S1350000x64_1_0_0_1_wf : ScatterDims.WF S100000x64 S1350000x1 S1350000x64 [1] [0] [0] 1

variable [Facts₀]

def gather_S100000x64_S27x50000x1_S27x50000x64_2_0_n_n_0_2_164 : GatherDims S100000x64 S27x50000x1 S27x50000x64 where
  offsetDims := [2]
  collapsedSliceDims := [0]
  operandBatchingDims := []
  startIndicesBatchingDims := []
  startIndexMap := [0]
  indexVectorDim := 2
  sliceSizes := ![1, 64]
  wf := gather_S100000x64_S27x50000x1_S27x50000x64_2_0_n_n_0_2_164_wf
def dot_S27x50000x64_S27x64x64_S27x50000x64_2_1_1_2_0_0 : DotDims S27x50000x64 S27x64x64 S27x50000x64 where
  lhsContracting := [2]
  rhsContracting := [1]
  lhsNonContracting := [1]
  rhsNonContracting := [2]
  lhsBatch := [0]
  rhsBatch := [0]
  wf := dot_S27x50000x64_S27x64x64_S27x50000x64_2_1_1_2_0_0_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf

class Facts : Prop extends Facts₀ where

variable [Facts]
-- ==== Proof.Spec.lean ====
import Idealize.ShloMosaic.Lib.ValueIdx
import Idealize.ShloMosaic.Lib.StackMember
import Idealize.ShloMosaic.PureOps.Ideal.Laws

/-!
# The per-offset product of a sparse convolution

For each of the 27 kernel offsets `k`, the 50000 gathered feature rows of that offset are multiplied by the offset's
64 × 64 weight matrix: entry `(k, l, o)` of the result is the sum over the input channel `c` of
`g (k, l, c) · w (k, c, o)`. This module states that array as one function of the gathered rows and the weights,
over the extended reals (where every float format is the same set of values), and shows that the stacked matrix
product `dot_general` with batch axes 0 and 0 and contracted axes 2 and 1 is this function.
-/

noncomputable section

namespace Cert.SparseConv

open Idealize.ShloMosaic Idealize.ShloMosaic.ValueIdx

/-- The per-offset product: at `(k, l, o)` the sum over the input channel `c` of `g (k, l, c) · w (k, c, o)`. -/
def offsetProd (g : (⟨3, ![27, 50000, 64]⟩ : Shape).Idx → EReal) (w : (⟨3, ![27, 64, 64]⟩ : Shape).Idx → EReal) :
    (⟨3, ![27, 50000, 64]⟩ : Shape).Idx → EReal :=
  fun i => ∑ c : Fin 64, g (ix3 (i 0) (i 1) c) * w (ix3 (i 0) c (i 2))

theorem offsetProd_apply (g : (⟨3, ![27, 50000, 64]⟩ : Shape).Idx → EReal) (w : (⟨3, ![27, 64, 64]⟩ : Shape).Idx → EReal)
    (k : Fin 27) (l : Fin 50000) (o : Fin 64) :
    offsetProd g w (ix3 k l o) = ∑ c : Fin 64, g (ix3 k l c) * w (ix3 k c o) := rfl

/-- The stacked matrix product of the gathered rows and the weights (batch axes 0 and 0, contracted axes 2 and 1) is the
    per-offset product: at every entry both are the same sum over the input channel. -/
theorem dotGeneral_eq_offsetProd {φ₁ φ₂ : FTy}
    (w : DotDims.WF ⟨3, ![27, 50000, 64]⟩ ⟨3, ![27, 64, 64]⟩ ⟨3, ![27, 50000, 64]⟩ [2] [1] [1] [2] [0] [0])
    (prec : Option ContractPrecision) (g : FVec Ideal ⟨3, ![27, 50000, 64]⟩ φ₁) (b : FVec Ideal ⟨3, ![27, 64, 64]⟩ φ₂) :
    Host.dotGeneral (⟨[2], [1], [1], [2], [0], [0], w⟩ : DotDims _ _ _) prec g b = offsetProd g b := by
  funext i
  obtain ⟨k, l, o, rfl⟩ : ∃ (k : Fin 27) (l : Fin 50000) (o : Fin 64), i = ix3 k l o := ⟨i 0, i 1, i 2, eq_ix3 i⟩
  rw [offsetProd_apply]
  exact StackMember.dotGeneral_stack_apply w prec g b k l o

end Cert.SparseConv

end
-- ==== Proof.LibConv.lean ====
import Idealize.ShloMosaic.Lib.ValueLayout
import Idealize.ShloMosaic.Lib.StackMember
import Mathlib.Algebra.BigOperators.Fin

/-!
# Layout operations of a block-window convolution body, read at coordinates

What every convolution body of the two programs does around its matrix products, for arrays of any extents: a
three-axis array flattened to a matrix and back (row `y · B + x`), a weight piece `[1, 1, a, b]` read as the matrix
`[a, b]`, the bias row laid along every row, the matrix product with the plain dimension numbers into the zero matrix
as a sum over the contracted coordinate, and a sum over `Fin K` as a sum over `range K`.
-/

namespace Cert.LibConv

open Idealize.ShloMosaic Idealize.ShloMosaic.ValueIdx
open Finset

section Layout
variable {α : Type}

/-- An A × B × C array flattened to M × C (M = A · B) reads, at row `m = y · B + x` and column `k`, the array at
    `(y, x, k)`: both have the same place in row-major order. -/
theorem flatten3_apply {A B C M : ℕ} (v : (⟨3, ![A, B, C]⟩ : Shape).Idx → α)
    (h : (⟨3, ![A, B, C]⟩ : Shape).ShapeCasts ⟨2, ![M, C]⟩) (y : Fin A) (x : Fin B) (k : Fin C) (m : Fin M)
    (hm : m.val = y.val * B + x.val) :
    shapeCast ⟨2, ![M, C]⟩ v h (ix2 m k) = v (ix3 y x k) :=
  shapeCast_apply v h _ _ (by
    rw [Shape.rowMajor_val_three, Shape.rowMajor_val_two]
    show (y.val * B + x.val) * C + k.val = m.val * C + k.val
    rw [hm])

/-- An M × C matrix (M = A · B) read as an A × B × C array: at `(y, x, k)` it is the matrix at row
    `m = y · B + x`, column `k`. -/
theorem unflatten3_apply {A B C M : ℕ} (v : (⟨2, ![M, C]⟩ : Shape).Idx → α)
    (h : (⟨2, ![M, C]⟩ : Shape).ShapeCasts ⟨3, ![A, B, C]⟩) (y : Fin A) (x : Fin B) (k : Fin C) (m : Fin M)
    (hm : m.val = y.val * B + x.val) :
    shapeCast ⟨3, ![A, B, C]⟩ v h (ix3 y x k) = v (ix2 m k) :=
  shapeCast_apply v h _ _ (by
    rw [Shape.rowMajor_val_three, Shape.rowMajor_val_two]
    show m.val * C + k.val = (y.val * B + x.val) * C + k.val
    rw [hm])

/-- A `[1, 1, a, b]` array read as the matrix `[a, b]`: at `(i, j)` it is the array at `(0, 0, i, j)`. -/
theorem shapeCast_11ab_ab_apply {a b : ℕ} (v : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ v h (ix2 i j) = v (ix4 (0 : Fin 1) (0 : Fin 1) i j) :=
  shapeCast_apply v h _ _ (by
    rw [Shape.rowMajor_val_four, Shape.rowMajor_val_two]
    show ((0 * 1 + 0) * a + i.val) * b + j.val = i.val * b + j.val
    simp only [Nat.zero_mul, Nat.zero_add])

/-- The bias row `[1, 1, b]`, read as `[1, b]` and laid along each of `a` rows: at `(p, n)` it is the row's
    entry `n`. -/
theorem biasRows_apply {a b : ℕ} (v : (⟨3, ![1, 1, b]⟩ : Shape).Idx → α)
    (h1 : (⟨3, ![1, 1, b]⟩ : Shape).ShapeCasts ⟨2, ![1, b]⟩) (h2 : (⟨2, ![1, b]⟩ : Shape).ShapeCasts ⟨2, ![1, b]⟩)
    (hb : (⟨2, ![1, b]⟩ : Shape).Broadcasts ⟨2, ![a, b]⟩) (p : Fin a) (n : Fin b) :
    broadcastTo ⟨2, ![a, b]⟩ (shapeCast ⟨2, ![1, b]⟩ (shapeCast ⟨2, ![1, b]⟩ v h1) h2) hb (ix2 p n)
      = v (ix3 (0 : Fin 1) (0 : Fin 1) n) := by
  rw [broadcastTo_1b_ab_apply, shapeCast_self, shapeCast_1ab_ab_apply]

end Layout

/-- A product with the plain dimension numbers of an M × K by K × N product, accumulated into the zero matrix, read at
    `(m, n)`: the sum over the contracted coordinate. -/
theorem matmul_plain_zero_apply {M K N : ℕ} {φ₁ φ₂ : FTy} (D : DotDims ⟨2, ![M, K]⟩ ⟨2, ![K, N]⟩ ⟨2, ![M, N]⟩)
    (hD : D = DotDims.plain M K N) (A : FVec Ideal ⟨2, ![M, K]⟩ φ₁) (B : FVec Ideal ⟨2, ![K, N]⟩ φ₂) (m : Fin M)
    (n : Fin N) :
    matmul D none A B (constant (F := Ideal) ⟨2, ![M, N]⟩ .f32 0x00000000#32) (ix2 m n)
      = ∑ k : Fin K, A (ix2 m k) * B (ix2 k n) := by
  subst hD
  rw [matmul_zero_eq_dotGeneral]
  exact StackMember.dotGeneral_plain_apply none A B m n

/-- A sum over `Fin K` whose terms are a function of the coordinate's value is the sum over `range K`. -/
theorem sum_fin {K : ℕ} (f : Fin K → EReal) (g : ℕ → EReal) (h : ∀ k : Fin K, f k = g k.val) :
    ∑ k : Fin K, f k = ∑ k ∈ range K, g k :=
  (Finset.sum_congr rfl fun k _ => h k).trans (Fin.sum_univ_eq_sum_range g K)

end Cert.LibConv
-- ==== Proof.KernelValue.lean ====
import proofs.«168678_j78632261255714_1_alg».proof.Proof.Gen.KernelIdeal.Frame
import proofs.«168678_j78632261255714_1_alg».proof.Proof.Spec
import proofs.«168678_j78632261255714_1_alg».proof.Proof.LibConv
import Idealize.ShloMosaic.Lib.Pipeline.Value
import Idealize.ShloMosaic.Lib.StableHlo.Run

/-!
# The kernel program's result as gather, per-offset product, scatter-add

The region multiplies, for each of the 27 offsets and each half of its 50000 pairs, a 25000 × 64 block of gathered
rows by the offset's 64 × 64 weights, accumulating into zero: entry `(r, o)` of the block is the sum over the input
channel `c` of `rows (r, c) · weights (c, o)`. Read through the blocks' places in the arrays this is the block of the
per-offset product of the whole arrays, and the 54 blocks tile the product array, so after the region the array is the
per-offset product. Before the region the rows are gathered and both operands change float format, which is the
identity on the extended reals; after it the product rows are added into the output rows their pairs name.
-/

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen Cert.SparseConv

variable (m : (ℓ : Loc nD τ sig) → Buf (Elt Ideal) ℓ) (ρ : Dev nD → PrngReg)

/-! ## One grid point: a 25000-row block of one offset's product -/

/-- The body's stored value at row `r`, column `o` of its block: the block of gathered rows is read as a 25000 × 64
    matrix, the offset's weights as a 64 × 64 matrix, and their product into the zero matrix is the sum over the input
    channel. -/
theorem pay_apply (x0 : Vec Ideal S1x25000x64 .bf16) (x1 : Vec Ideal S1x64x64 .bf16) (r : Fin 25000) (o : Fin 64) :
    k0_pay1 x0 x1 (ix3 (0 : Fin 1) r o) = ∑ cc : Fin 64, x0 (ix3 (0 : Fin 1) r cc) * x1 (ix3 (0 : Fin 1) cc o) := by
  unfold k0_pay1
  refine (Cert.LibConv.unflatten3_apply _ _ (0 : Fin 1) r o r (by simp)).trans ?_
  refine (Cert.LibConv.matmul_plain_zero_apply _ rfl _ _ r o).trans ?_
  refine Finset.sum_congr rfl fun cc _ => ?_
  exact congrArg₂ (· * ·) (Cert.LibConv.flatten3_apply _ _ (0 : Fin 1) r cc r (by simp))
    (Cert.LibConv.flatten3_apply _ _ (0 : Fin 1) cc o cc (by simp))

/-- If a block of rows `x0` and a block of weights `x1` are read off the arrays `A` and `B` at the places an embedding
    `e` of the output block says — the same offset and row as the output entry for the rows, the same offset for the
    weights — then the body's stored value at `j` is the per-offset product of `A` and `B` at `e j`. -/
theorem block_apply (A : FVec Ideal S27x50000x64 .bf16) (B : FVec Ideal S27x64x64 .bf16)
    (x0 : Vec Ideal S1x25000x64 .bf16) (x1 : Vec Ideal S1x64x64 .bf16) (e : S1x25000x64.Idx → S27x50000x64.Idx)
    (h0 : ∀ (r : Fin 25000) (o cc : Fin 64),
      x0 (ix3 (0 : Fin 1) r cc) = A (ix3 (e (ix3 (0 : Fin 1) r o) 0) (e (ix3 (0 : Fin 1) r o) 1) cc))
    (h1 : ∀ (r : Fin 25000) (o cc : Fin 64),
      x1 (ix3 (0 : Fin 1) cc o) = B (ix3 (e (ix3 (0 : Fin 1) r o) 0) cc (e (ix3 (0 : Fin 1) r o) 2)))
    (j : S1x25000x64.Idx) : k0_pay1 x0 x1 j = offsetProd A B (e j) := by
  obtain ⟨z, r, o, rfl⟩ : ∃ (z : Fin 1) (r : Fin 25000) (o : Fin 64), j = ix3 z r o := ⟨j 0, j 1, j 2, eq_ix3 j⟩
  obtain rfl : z = 0 := Subsingleton.elim _ _
  refine (pay_apply x0 x1 r o).trans ?_
  unfold offsetProd
  exact Finset.sum_congr rfl fun cc _ => congrArg₂ (· * ·) (h0 r o cc) (h1 r o cc)

/-- The body's loads and its store start at the origin of their buffers. -/
theorem hz : (![0, 0, 0] : Fin 3 → Nat) = fun _ => 0 := funext fun a => by fin_cases a <;> rfl

/-- The arrays the region finds: the gathered rows and the weights. -/
abbrev garr (c : Dev nD) : FVec Ideal S27x50000x64 .bf16 := V m c main_v7
abbrev warr (c : Dev nD) : FVec Ideal S27x64x64 .bf16 := V m c main_v8

/-- The printed index maps over the 27 × 2 grid: the rows' block moves with the output's block, the weights' block
    follows the offset only. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_2.index t (2 : Fin 3) = 0
    ∧ win0_1.index t (0 : Fin 3) = win0_2.index t (0 : Fin 3) ∧ win0_1.index t (1 : Fin 3) = 0
    ∧ win0_1.index t (2 : Fin 3) = 0 :=
  (by decide +kernel : ∀ t : Fin grid0.N, _)

/-- Every (offset, half) is some grid point's output block. -/
theorem idx_onto : ∀ (q0 : Fin 27) (q1 : Fin 2), ∃ t : Fin cfg0.N, win0_2.index t = ![q0.val, q1.val, 0] :=
  (by decide +kernel : ∀ (q0 : Fin 27) (q1 : Fin 2), ∃ t : Fin grid0.N, win0_2.index t = ![q0.val, q1.val, 0])

/-- What grid point `t` writes back is its block of the per-offset product of the arrays the region finds. -/
theorem flushed_eq (c : Dev nD) (t : Fin cfg0.N) :
    (dats m 0 c).flushed 2 t = ((cfg0.win 2).blk t).view.read (Elt Ideal) (offsetProd (garr m c) (warr m c)) := by
  show (cfg0.win 2).cut (grid0.coords t) ((dats m 0 c).after 2 t) = _
  rw [after0_2]
  unfold out0_2
  rw [View.canon_unit_zero hz]
  simp only [View.ld_unit_zero (S := S1x25000x64) hz, View.ld_unit_zero (S := S1x64x64) hz]
  obtain ⟨e0, e1, e2, e3, e4, e5, e6⟩ := idx_facts t
  funext j
  show k0_pay1 (iblk m c 0 t) (iblk m c 1 t) j = offsetProd (garr m c) (warr m c) (((cfg0.win 2).blk t).view.emb j)
  refine block_apply (garr m c) (warr m c) (iblk m c 0 t) (iblk m c 1 t) (((cfg0.win 2).blk t).view.emb) ?_ ?_ j
  · intro r o cc
    show V m c main_v7 (((cfg0.win 0).blk t).view.emb (ix3 (0 : Fin 1) r cc)) = V m c main_v7 _
    congr 1
    funext a; apply Fin.ext
    match a with
    | ⟨0, _⟩ => show win0_0.index t (0 : Fin 3) * 1 + 1 * 0 = win0_2.index t (0 : Fin 3) * 1 + 1 * 0; omega
    | ⟨1, _⟩ => show win0_0.index t (1 : Fin 3) * 25000 + 1 * r.val = win0_2.index t (1 : Fin 3) * 25000 + 1 * r.val; omega
    | ⟨2, _⟩ => show win0_0.index t (2 : Fin 3) * 64 + 1 * cc.val = cc.val; omega
  · intro r o cc
    show V m c main_v8 (((cfg0.win 1).blk t).view.emb (ix3 (0 : Fin 1) cc o)) = V m c main_v8 _
    congr 1
    funext a; apply Fin.ext
    match a with
    | ⟨0, _⟩ => show win0_1.index t (0 : Fin 3) * 1 + 1 * 0 = win0_2.index t (0 : Fin 3) * 1 + 1 * 0; omega
    | ⟨1, _⟩ => show win0_1.index t (1 : Fin 3) * 64 + 1 * cc.val = cc.val; omega
    | ⟨2, _⟩ => show win0_1.index t (2 : Fin 3) * 64 + 1 * o.val = win0_2.index t (2 : Fin 3) * 64 + 1 * o.val; omega

/-- An index of the product array is in point `t`'s block iff each coordinate is in the block's range on its axis. -/
theorem mem_blk (t : Fin cfg0.N) (i : S27x50000x64.Idx) :
    i ∈ ((cfg0.win 2).blk t).view.set ↔ ∀ a : Fin 3, win0_2.index t a * S1x25000x64.size a ≤ (i a).val ∧ (i a).val < win0_2.index t a * S1x25000x64.size a + S1x25000x64.size a := by
  show i ∈ ((View.whole main_v9).slice (win0_2.rect t)).set ↔ _
  rw [View.set_slice_whole, Rect.mem_set_unit]
  exact Iff.rfl

/-- The 54 blocks tile the product array: entry `(k, l, o)` is in the block of offset `k`, half `l / 25000`. -/
theorem cover (i : S27x50000x64.Idx) :
    ∃ t : Fin cfg0.N, (cfg0.win 2).flush t = true ∧ i ∈ ((cfg0.win 2).blk t).view.set := by
  have hi0 : (i 0).val < 27 := (i 0).isLt
  have hi1 : (i 1).val < 50000 := (i 1).isLt
  have hi2 : (i 2).val < 64 := (i 2).isLt
  obtain ⟨t, ht⟩ := idx_onto ⟨(i 0).val, hi0⟩ ⟨(i 1).val / 25000, by omega⟩
  have q0 : win0_2.index t (0 : Fin 3) = (i 0).val := congrFun ht 0
  have q1 : win0_2.index t (1 : Fin 3) = (i 1).val / 25000 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 25000 ≤ (i 1).val ∧ (i 1).val < win0_2.index t (1 : Fin 3) * 25000 + 25000; omega
  | ⟨2, _⟩ => show win0_2.index t (2 : Fin 3) * 64 ≤ (i 2).val ∧ (i 2).val < win0_2.index t (2 : Fin 3) * 64 + 64; omega

/-- After the region the product array holds the per-offset product of the arrays the region found. -/
theorem final (c : Dev nD) : (dats m 0 c).arrAt 2 cfg0.N = offsetProd (garr m c) (warr m c) :=
  (dats m 0 c).arrAt_eq_of_cover 2 (offsetProd (garr m c) (warr m c)) (fun t _ => flushed_eq m c t) cover

/-! ## The host operations around the region -/

/-- The gathered rows: row `(k, l)` is the feature row named by the pair's input index, a negative index counted from
    the end of the table. -/
def gathered (x : FVec Ideal S100000x64 .f32) (i : (⟨S27x50000, .i32⟩ : BufTy).Contents (Elt Ideal)) :
    FVec Ideal S27x50000x64 .f32 :=
  Host.gather gather_S100000x64_S27x50000x1_S27x50000x64_2_0_n_n_0_2_164 x
    (broadcastInDim S27x50000x1 ![0, 1] bcast_S27x50000_S27x50000x1_0_1
      (select (cmpi .slt i (broadcastInDim S27x50000 ![] bcast_S_S27x50000 (constantI S_ 32 0#32)))
        (addi i (broadcastInDim S27x50000 ![] bcast_S_S27x50000 (constantI S_ 32 100000#32))) i))

/-- The scatter-add: starting from the zero table, product row `(k, l)`, in row-major order of the pairs, is added into
    the output row named by the pair's output index, a negative index counted from the end of the table. -/
def scattered (i : (⟨S27x50000, .i32⟩ : BufTy).Contents (Elt Ideal)) (u : FVec Ideal S27x50000x64 .f32) :
    FVec Ideal S100000x64 .f32 :=
  Host.scatterAdd scatter_S100000x64_S1350000x1_S1350000x64_1_0_0_1
    (broadcastInDim S100000x64 ![] bcast_S_S100000x64 (constant (F := Ideal) S_ .f32 0x00000000#32))
    (broadcastInDim S1350000x1 ![0] bcast_S1350000_S1350000x1_0
      (select (cmpi .slt (shapeCast _ i shapeCasts_S27x50000_S1350000) (broadcastInDim S1350000 ![] bcast_S_S1350000 (constantI S_ 32 0#32)))
        (addi (shapeCast _ i shapeCasts_S27x50000_S1350000) (broadcastInDim S1350000 ![] bcast_S_S1350000 (constantI S_ 32 100000#32)))
        (shapeCast _ i shapeCasts_S27x50000_S1350000)))
    (shapeCast _ u shapeCasts_S27x50000x64_S1350000x64)

/-- The rows the region finds are the gathered rows: the change of format after the gather is the identity on the
    extended reals. -/
theorem garr_eq (c : Dev nD) :
    garr m c = gathered (m ((c.tc : Thread nD τ).loc main_arg0)) (m ((c.tc : Thread nD τ).loc main_arg2)) := by
  show StableHlo.after hostOps0 (fun b => m (c, b)) (Proc.devRef .tc main_v7) = _
  after_results
  rfl

/-- The weights the region finds are the weights as launched, for the same reason. -/
theorem warr_eq (c : Dev nD) : warr m c = m ((c.tc : Thread nD τ).loc main_arg1) := by
  show StableHlo.after hostOps0 (fun b => m (c, b)) (Proc.devRef .tc main_v8) = _
  after_results
  rfl

/-- What the operations after the region leave in the result: the scatter-add of the per-offset product of the
    gathered rows and the weights. The output indices are read from an argument no window stages, the product from the
    region's output array. -/
theorem result_eq (c : Dev nD) :
    Pipeline.afterTail₀ cfgs (dats m) 0 (V0 m) [hostOps1] c main_v19
      = scattered (m ((c.tc : Thread nD τ).loc main_arg3))
          (offsetProd (gathered (m ((c.tc : Thread nD τ).loc main_arg0)) (m ((c.tc : Thread nD τ).loc main_arg2)))
            (m ((c.tc : Thread nD τ).loc main_arg1))) := by
  have h3 : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3
      (by exact (by decide : ∀ w, Pipeline.arrRef spec0 w ≠ main_arg3))).trans (V_main_arg3 m c)
  have h9 : Pipeline.withArrays (cfgs 0).spec c (V0 m c) (fun w => (dats m 0 c).arrAt w (cfgs 0).N) (Proc.devRef .tc main_v9)
      = offsetProd (gathered (m ((c.tc : Thread nD τ).loc main_arg0)) (m ((c.tc : Thread nD τ).loc main_arg2)))
          (m ((c.tc : Thread nD τ).loc main_arg1)) :=
    (Pipeline.withArrays_arr spec0 launch0.win.arr_inj c _ _ 2).trans
      ((final m c).trans (by rw [garr_eq, warr_eq]))
  unfold Pipeline.afterTail₀
  show StableHlo.after hostOps1 _ (Proc.devRef .tc main_v19) = _
  after_results
  rw [h3, h9]
  rfl

/-! ## The run, read -/

/-- Every run of the kernel program ends with its result at the scatter-add of the per-offset product of the gathered
    rows and the weights, and with its arguments unchanged. -/
theorem run : θ_run defs (onTc (τ := τ) (main (F := Ideal))) ⟨m, fun _ => 0, ρ⟩ fun r => ∀ c : Dev nD,
      r.2.mem ((c.tc : Thread nD τ).loc main_v19)
          = scattered (m ((c.tc : Thread nD τ).loc main_arg3))
              (offsetProd (gathered (m ((c.tc : Thread nD τ).loc main_arg0)) (m ((c.tc : Thread nD τ).loc main_arg2)))
                (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v19 (Pipeline.mem_restRefs_of main_v19 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.RefValue.lean ====
import proofs.«168678_j78632261255714_1_alg».proof.Proof.Gen.ReferenceIdeal.Run
import proofs.«168678_j78632261255714_1_alg».proof.Proof.Spec

/-!
# The reference's result as gather, per-offset product, scatter-add

The reference gathers a feature row for each (offset, pair), multiplies the rows of each offset by that offset's
weight matrix with one stacked matrix product, and adds each product row into the output row its pair names. The
stacked product is the per-offset product of the specification; the gather before it and the scatter-add after it are
kept as they are printed.
-/

noncomputable section

namespace Cert.ReferenceIdeal.RefValue

open Idealize.ShloMosaic Idealize.ShloMosaic.TcCoe Idealize.SL.Sem
open Cert.ReferenceIdeal Cert.ReferenceIdeal.Gen Cert.SparseConv

/-- The gathered rows: row `(k, l)` is the feature row named by the pair's input index, a negative index counted from
    the end of the table. -/
def gathered (x : FVec Ideal S100000x64 .f32) (i : (⟨S27x50000, .i32⟩ : BufTy).Contents (Elt Ideal)) :
    FVec Ideal S27x50000x64 .f32 :=
  Host.gather gather_S100000x64_S27x50000x1_S27x50000x64_2_0_n_n_0_2_164 x
    (broadcastInDim S27x50000x1 ![0, 1] bcast_S27x50000_S27x50000x1_0_1
      (select (cmpi .slt i (broadcastInDim S27x50000 ![] bcast_S_S27x50000 (constantI S_ 32 0#32)))
        (addi i (broadcastInDim S27x50000 ![] bcast_S_S27x50000 (constantI S_ 32 100000#32))) i))

/-- The scatter-add: starting from the zero table, product row `(k, l)`, in row-major order of the pairs, is added into
    the output row named by the pair's output index, a negative index counted from the end of the table. -/
def scattered (i : (⟨S27x50000, .i32⟩ : BufTy).Contents (Elt Ideal)) (u : FVec Ideal S27x50000x64 .f32) :
    FVec Ideal S100000x64 .f32 :=
  Host.scatterAdd scatter_S100000x64_S1350000x1_S1350000x64_1_0_0_1
    (broadcastInDim S100000x64 ![] bcast_S_S100000x64 (constant (F := Ideal) S_ .f32 0x00000000#32))
    (broadcastInDim S1350000x1 ![0] bcast_S1350000_S1350000x1_0
      (select (cmpi .slt (shapeCast _ i shapeCasts_S27x50000_S1350000) (broadcastInDim S1350000 ![] bcast_S_S1350000 (constantI S_ 32 0#32)))
        (addi (shapeCast _ i shapeCasts_S27x50000_S1350000) (broadcastInDim S1350000 ![] bcast_S_S1350000 (constantI S_ 32 100000#32)))
        (shapeCast _ i shapeCasts_S27x50000_S1350000)))
    (shapeCast _ u shapeCasts_S27x50000x64_S1350000x64)

/-- The reference's stacked matrix product is the per-offset product. -/
theorem dot_eq (g : FVec Ideal S27x50000x64 .f32) (b : FVec Ideal S27x64x64 .f32) :
    Host.dotGeneral dot_S27x50000x64_S27x64x64_S27x50000x64_2_1_1_2_0_0 none g b = offsetProd g b :=
  dotGeneral_eq_offsetProd _ none g b

/-- Every run of the reference ends with its result at the scatter-add of the per-offset product of the gathered rows
    and the weights, and with its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v17)
          = scattered (m ((c.tc : Thread nD τ).loc main_arg3))
              (offsetProd (gathered (m ((c.tc : Thread nD τ).loc main_arg0)) (m ((c.tc : Thread nD τ).loc main_arg2)))
                (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
      unfold scattered gathered
      rw [dot_eq]), (h c).2⟩)
    (Cert.ReferenceIdeal.Value.run (F := Ideal) m ρ)

end Cert.ReferenceIdeal.RefValue

end
-- ==== Proof.lean ====
/-
  A sparse convolution over 27 kernel offsets, each with 50000 (input row, output row) pairs over a table of 100000
  feature rows of 64 channels: gather the input row of every pair, multiply the rows of each offset by that offset's
  64 × 64 weight matrix, and add every product row into the output row its pair names.

  Both programs gather with the same operation and scatter-add with the same operation; they differ only in the
  middle. The reference multiplies all offsets at once with one stacked matrix product. The kernel lays the gathered
  rows and the weights out in a narrower float format, which on the extended reals changes nothing, and computes the
  product block by block on a 27 × 2 grid: the block of offset k and half h holds rows 25000·h … 25000·h + 24999 of
  offset k, each entry the product of a 25000 × 64 block of rows with the offset's weights, accumulated into zero. At
  every entry (k, l, o) both are the sum over the input channel c of g (k, l, c) · w (k, c, o); no law beyond
  0 + x = x is used, so the finiteness of the inputs is never opened. The 54 blocks tile the product array, so after
  the region the array is that function everywhere.
-/
import proofs.«168678_j78632261255714_1_alg».proof.Defs
import proofs.«168678_j78632261255714_1_alg».proof.Proof.Gen.Kernel
import proofs.«168678_j78632261255714_1_alg».proof.Proof.Gen.Kernel.Skeleton
import proofs.«168678_j78632261255714_1_alg».proof.Proof.Gen.Kernel.Launch
import proofs.«168678_j78632261255714_1_alg».proof.Proof.Gen.Kernel.Points
import proofs.«168678_j78632261255714_1_alg».proof.Proof.Gen.Kernel.Frame
import proofs.«168678_j78632261255714_1_alg».proof.Proof.Gen.KernelIdeal
import proofs.«168678_j78632261255714_1_alg».proof.Proof.Gen.KernelIdeal.Skeleton
import proofs.«168678_j78632261255714_1_alg».proof.Proof.Gen.KernelIdeal.Launch
import proofs.«168678_j78632261255714_1_alg».proof.Proof.Gen.KernelIdeal.Points
import proofs.«168678_j78632261255714_1_alg».proof.Proof.Gen.KernelIdeal.Frame
import proofs.«168678_j78632261255714_1_alg».proof.Proof.Gen.ReferenceIdeal
import proofs.«168678_j78632261255714_1_alg».proof.Proof.Gen.ReferenceIdeal.Run
import proofs.«168678_j78632261255714_1_alg».proof.Proof.Gen.Pre_finite_inputs
import proofs.«168678_j78632261255714_1_alg».proof.Proof.KernelValue
import proofs.«168678_j78632261255714_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel program was rewritten for the reading on the extended reals. -/
theorem preserves : Cert.preserves_Kernel_KernelIdeal := trivial

/-- The two programs gather with the same operation on the same index arithmetic, -/
theorem gathered_eq : Cert.ReferenceIdeal.RefValue.gathered = Cert.KernelIdeal.KValue.gathered := rfl

/-- and scatter-add with the same operation on the same index arithmetic. -/
theorem scattered_eq : Cert.ReferenceIdeal.RefValue.scattered = Cert.KernelIdeal.KValue.scattered := rfl

/-- From memories that agree on the arguments both programs end with the scatter-add of the per-offset product of the
    gathered rows and the weights: the kernel by its blocks, the reference by its stacked product. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2, gathered_eq, scattered_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
